-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S2097152x3 : Shape := ⟨2, ![2097152, 3]⟩
abbrev S2x2 : Shape := ⟨2, ![2, 2]⟩
abbrev S3x2 : Shape := ⟨2, ![3, 2]⟩
abbrev S2x3 : Shape := ⟨2, ![2, 3]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  bcast_S_S2x2 : S_.BroadcastsInDim S2x2 (![] : Fin 0 → Fin S2x2.rank)
  reducesTo_S2x2_S_d0_1 : S2x2.ReducesTo [0, 1] S_
  bcast_S_S3x2 : S_.BroadcastsInDim S3x2 (![] : Fin 0 → Fin S3x2.rank)
  reducesTo_S3x2_S_d0_1 : S3x2.ReducesTo [0, 1] S_
  bcast_S_S2x3 : S_.BroadcastsInDim S2x3 (![] : Fin 0 → Fin S2x3.rank)
  reducesTo_S2x3_S_d0_1 : S2x3.ReducesTo [0, 1] S_

variable [Facts]

def fn_part1 {F : FTy → Type} [FloatOps F] (main_arg4 : FVec F S2x2 .f32) (main_arg5 : FVec F S3x2 .f32) (main_arg6 : FVec F S2x3 .f32) (main_v13 : IVec S_ 1) (main_v16 : IVec S2097152x2 1) : IVec S_ 1 :=
  let main_c_5 : IVec S_ 1 := constantI S_ 1 1#1
  let main_v17 : IVec S_ 1 := (fun x v => Host.reduce IntOp.andi x v reducesTo_S2097152x2_S_d0_1 h_S_) main_v16 main_c_5
  let main_v18 : IVec S_ 1 := andi main_v13 main_v17
  let main_v19 : FVec F S2x2 .f32 := Host.absf main_arg4
  let main_cst_6 : FVec F S_ .f32 := constant S_ .f32 0x7F800000#32
  let main_v20 : FVec F S2x2 .f32 := broadcastInDim S2x2 ![] bcast_S_S2x2 main_cst_6
  let main_v21 : IVec S2x2 1 := cmpf .olt main_v19 main_v20
  let main_c_7 : IVec S_ 1 := constantI S_ 1 1#1
  let main_v22 : IVec S_ 1 := (fun x v => Host.reduce IntOp.andi x v reducesTo_S2x2_S_d0_1 h_S_) main_v21 main_c_7
  let main_v23 : IVec S_ 1 := andi main_v18 main_v22
  let main_v24 : FVec F S3x2 .f32 := Host.absf main_arg5
  let main_cst_8 : FVec F S_ .f32 := constant S_ .f32 0x7F800000#32
  let main_v25 : FVec F S3x2 .f32 := broadcastInDim S3x2 ![] bcast_S_S3x2 main_cst_8
  let main_v26 : IVec S3x2 1 := cmpf .olt main_v24 main_v25
  let main_c_9 : IVec S_ 1 := constantI S_ 1 1#1
  let main_v27 : IVec S_ 1 := (fun x v => Host.reduce IntOp.andi x v reducesTo_S3x2_S_d0_1 h_S_) main_v26 main_c_9
  let main_v28 : IVec S_ 1 := andi main_v23 main_v27
  let main_v29 : FVec F S2x3 .f32 := Host.absf main_arg6
  let main_cst_10 : FVec F S_ .f32 := constant S_ .f32 0x7F800000#32
  let main_v30 : FVec F S2x3 .f32 := broadcastInDim S2x3 ![] bcast_S_S2x3 main_cst_10
  let main_v31 : IVec S2x3 1 := cmpf .olt main_v29 main_v30
  let main_c_11 : IVec S_ 1 := constantI S_ 1 1#1
  let main_v32 : IVec S_ 1 := (fun x v => Host.reduce IntOp.andi x v reducesTo_S2x3_S_d0_1 h_S_) main_v31 main_c_11
  let main_v33 : IVec S_ 1 := andi main_v28 main_v32
  main_v33

def fn {F : FTy → Type} [FloatOps F] (main_arg0 : FVec F S2097152x2 .f32) (main_arg1 : FVec F S2097152x2 .f32) (main_arg2 : FVec F S2097152x3 .f32) (main_arg3 : FVec F S2097152x2 .f32) (main_arg4 : FVec F S2x2 .f32) (main_arg5 : FVec F S3x2 .f32) (main_arg6 : FVec F S2x3 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S2097152x2 .f32 := Host.absf main_arg1
  let main_cst_0 : FVec F S_ .f32 := constant S_ .f32 0x7F800000#32
  let main_v5 : FVec F S2097152x2 .f32 := broadcastInDim S2097152x2 ![] bcast_S_S2097152x2 main_cst_0
  let main_v6 : IVec S2097152x2 1 := cmpf .olt main_v4 main_v5
  let main_c_1 : IVec S_ 1 := constantI S_ 1 1#1
  let main_v7 : IVec S_ 1 := (fun x v => Host.reduce IntOp.andi x v reducesTo_S2097152x2_S_d0_1 h_S_) main_v6 main_c_1
  let main_v8 : IVec S_ 1 := andi main_v3 main_v7
  let main_v9 : FVec F S2097152x3 .f32 := Host.absf main_arg2
  let main_cst_2 : FVec F S_ .f32 := constant S_ .f32 0x7F800000#32
  let main_v10 : FVec F S2097152x3 .f32 := broadcastInDim S2097152x3 ![] bcast_S_S2097152x3 main_cst_2
  let main_v11 : IVec S2097152x3 1 := cmpf .olt main_v9 main_v10
  let main_c_3 : IVec S_ 1 := constantI S_ 1 1#1
  let main_v12 : IVec S_ 1 := (fun x v => Host.reduce IntOp.andi x v reducesTo_S2097152x3_S_d0_1 h_S_) main_v11 main_c_3
  let main_v13 : IVec S_ 1 := andi main_v8 main_v12
  let main_v14 : FVec F S2097152x2 .f32 := Host.absf main_arg3
  let main_cst_4 : FVec F S_ .f32 := constant S_ .f32 0x7F800000#32
  let main_v15 : FVec F S2097152x2 .f32 := broadcastInDim S2097152x2 ![] bcast_S_S2097152x2 main_cst_4
  let main_v16 : IVec S2097152x2 1 := cmpf .olt main_v14 main_v15
  fn_part1 (F := F) main_arg4 main_arg5 main_arg6 main_v13 main_v16
-- ==== Kernel.lean ====
abbrev S2097152x2 : Shape := ⟨2, ![2097152, 2]⟩
abbrev S2097152x3 : Shape := ⟨2, ![2097152, 3]⟩
abbrev S2x2 : Shape := ⟨2, ![2, 2]⟩
abbrev S3x2 : Shape := ⟨2, ![3, 2]⟩
abbrev S2x3 : Shape := ⟨2, ![2, 3]⟩
abbrev S2048x2 : Shape := ⟨2, ![2048, 2]⟩
abbrev S2048x3 : Shape := ⟨2, ![2048, 3]⟩

abbrev nBuf : Space → Nat
  | .hbm => 14
  | .vmem => 19
  | .smem => 0
  | _ => 0

abbrev bufTy : (tb : Table) → Fin (tcTables nBuf tb) → BufTy
  | .hbm, ⟨0, _⟩ => ⟨S2097152x2, .f32⟩
  | .hbm, ⟨1, _⟩ => ⟨S2097152x2, .f32⟩
  | .hbm, ⟨2, _⟩ => ⟨S2097152x3, .f32⟩
  | .hbm, ⟨3, _⟩ => ⟨S2097152x2, .f32⟩
  | .hbm, ⟨4, _⟩ => ⟨S2x2, .f32⟩
  | .hbm, ⟨5, _⟩ => ⟨S3x2, .f32⟩
  | .hbm, ⟨6, _⟩ => ⟨S2x3, .f32⟩
  | .hbm, ⟨7, _⟩ => ⟨S2x2, .f32⟩
  | .hbm, ⟨8, _⟩ => ⟨S2x3, .f32⟩
  | .hbm, ⟨9, _⟩ => ⟨S3x2, .f32⟩
  | .hbm, ⟨10, _⟩ => ⟨S2097152x2, .f32⟩
  | .hbm, ⟨11, _⟩ => ⟨S2097152x2, .f32⟩
  | .hbm, ⟨12, _⟩ => ⟨S2097152x3, .f32⟩
  | .hbm, ⟨13, _⟩ => ⟨S2097152x2, .f32⟩
  | .local _ .vmem, ⟨0, _⟩ => ⟨S2048x2, .f32⟩
  | .local _ .vmem, ⟨1, _⟩ => ⟨S2048x2, .f32⟩
  | .local _ .vmem, ⟨2, _⟩ => ⟨S2048x2, .f32⟩
  | .local _ .vmem, ⟨3, _⟩ => ⟨S2048x2, .f32⟩
  | .local _ .vmem, ⟨4, _⟩ => ⟨S2048x3, .f32⟩
  | .local _ .vmem, ⟨5, _⟩ => ⟨S2048x3, .f32⟩
  | .local _ .vmem, ⟨6, _⟩ => ⟨S2048x2, .f32⟩
  | .local _ .vmem, ⟨7, _⟩ => ⟨S2048x2, .f32⟩
  | .local _ .vmem, ⟨8, _⟩ => ⟨S2x2, .f32⟩
  | .local _ .vmem, ⟨9, _⟩ => ⟨S2x3, .f32⟩
  | .local _ .vmem, ⟨10, _⟩ => ⟨S3x2, .f32⟩
  | .local _ .vmem, ⟨11, _⟩ => ⟨S2048x2, .f32⟩
  | .local _ .vmem, ⟨12, _⟩ => ⟨S2048x2, .f32⟩
  | .local _ .vmem, ⟨13, _⟩ => ⟨S2048x2, .f32⟩
  | .local _ .vmem, ⟨14, _⟩ => ⟨S2048x2, .f32⟩
  | .local _ .vmem, ⟨15, _⟩ => ⟨S2048x3, .f32⟩
  | .local _ .vmem, ⟨16, _⟩ => ⟨S2048x3, .f32⟩
  | .local _ .vmem, ⟨17, _⟩ => ⟨S2048x2, .f32⟩
  | .local _ .vmem, ⟨18, _⟩ => ⟨S2048x2, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S2x2_S2x2_1_0 : S2x2.Transposes [1, 0] S2x2
  transposes_S3x2_S2x3_1_0 : S3x2.Transposes [1, 0] S2x3
  transposes_S2x3_S3x2_1_0 : S2x3.Transposes [1, 0] S3x2
  inb_S2048x2_S2048x2_0_0 : ∀ a, (![0, 0] : Fin 2 → Nat) a + S2048x2.size a ≤ S2048x2.size a
  h_S2048x2 : 0 < S2048x2.numel
  inb_S2x2_S2x2_0_0 : ∀ a, (![0, 0] : Fin 2 → Nat) a + S2x2.size a ≤ S2x2.size a
  h_S2x2 : 0 < S2x2.numel
  shapeCasts_S2x2_S2x2 : S2x2.ShapeCasts S2x2
  natLt_1_32 : 1 < 32
  inb_S2048x3_S2048x3_0_0 : ∀ a, (![0, 0] : Fin 2 → Nat) a + S2048x3.size a ≤ S2048x3.size a
  h_S2048x3 : 0 < S2048x3.numel
  inb_S2x3_S2x3_0_0 : ∀ a, (![0, 0] : Fin 2 → Nat) a + S2x3.size a ≤ S2x3.size a
  h_S2x3 : 0 < S2x3.numel
  shapeCasts_S2x3_S2x3 : S2x3.ShapeCasts S2x3
  inb_S3x2_S3x2_0_0 : ∀ a, (![0, 0] : Fin 2 → Nat) a + S3x2.size a ≤ S3x2.size a
  h_S3x2 : 0 < S3x2.numel
  shapeCasts_S3x2_S3x2 : S3x2.ShapeCasts S3x2
  dot_S2048x2_S2x2_S2048x2_1_0_0_1_n_n_wf : DotDims.WF S2048x2 S2x2 S2048x2 [1] [0] [0] [1] [] []
  dot_S2048x2_S2x3_S2048x3_1_0_0_1_n_n_wf : DotDims.WF S2048x2 S2x3 S2048x3 [1] [0] [0] [1] [] []
  dot_S2048x3_S3x2_S2048x2_1_0_0_1_n_n_wf : DotDims.WF S2048x3 S3x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S2097152x2.size a
  hwx0_0 : ∀ i : grid0.Coords, EltTy.bits .f32 = 32 ∨ (Rect.block (s := S2097152x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S2097152x2.size a
  hwx0_1 : ∀ i : grid0.Coords, EltTy.bits .f32 = 32 ∨ (Rect.block (s := S2097152x2) S2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x3.size a ≤ S2097152x3.size a
  hwx0_2 : ∀ i : grid0.Coords, EltTy.bits .f32 = 32 ∨ (Rect.block (s := S2097152x3) S2048x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2.size a ≤ S2097152x2.size a
  hwx0_3 : ∀ i : grid0.Coords, EltTy.bits .f32 = 32 ∨ (Rect.block (s := S2097152x2) S2048x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x2.size a ≤ S2x2.size a
  hwx0_4 : ∀ i : grid0.Coords, EltTy.bits .f32 = 32 ∨ (Rect.block (s := S2x2) S2x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x3.size a ≤ S2x3.size a
  hwx0_5 : ∀ i : grid0.Coords, EltTy.bits .f32 = 32 ∨ (Rect.block (s := S2x3) S2x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x2.size a ≤ S3x2.size a
  hwx0_6 : ∀ i : grid0.Coords, EltTy.bits .f32 = 32 ∨ (Rect.block (s := S3x2) S3x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x2.size a ≤ S2097152x2.size a
  hwx0_7 : ∀ i : grid0.Coords, EltTy.bits .f32 = 32 ∨ (Rect.block (s := S2097152x2) S2048x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x2.size a ≤ S2097152x2.size a
  hwx0_8 : ∀ i : grid0.Coords, EltTy.bits .f32 = 32 ∨ (Rect.block (s := S2097152x2) S2048x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x3.size a ≤ S2097152x3.size a
  hwx0_9 : ∀ i : grid0.Coords, EltTy.bits .f32 = 32 ∨ (Rect.block (s := S2097152x3) S2048x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x2.size a ≤ S2097152x2.size a
  hwx0_10 : ∀ i : grid0.Coords, EltTy.bits .f32 = 32 ∨ (Rect.block (s := S2097152x2) S2048x2.size (cc0_transform_10 i) (hinb0_10 i)).WholeWords (EltTy.packing .f32)

variable [Facts₀]

def dot_S2048x2_S2x2_S2048x2_1_0_0_1_n_n : DotDims S2048x2 S2x2 S2048x2 where
  lhsContracting := [1]
  rhsContracting := [0]
  lhsNonContracting := [0]
  rhsNonContracting := [1]
  lhsBatch := []
  rhsBatch := []
  wf := dot_S2048x2_S2x2_S2048x2_1_0_0_1_n_n_wf
def dot_S2048x2_S2x3_S2048x3_1_0_0_1_n_n : DotDims S2048x2 S2x3 S2048x3 where
  lhsContracting := [1]
  rhsContracting := [0]
  lhsNonContracting := [0]
  rhsNonContracting := [1]
  lhsBatch := []
  rhsBatch := []
  wf := dot_S2048x2_S2x3_S2048x3_1_0_0_1_n_n_wf
def dot_S2048x3_S3x2_S2048x2_1_0_0_1_n_n : DotDims S2048x3 S3x2 S2048x2 where
  lhsContracting := [1]
  rhsContracting := [0]
  lhsNonContracting := [0]
  rhsNonContracting := [1]
  lhsBatch := []
  rhsBatch := []
  wf := dot_S2048x3_S3x2_S2048x2_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S3x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S2048x2.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S2048x2.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S2048x3.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_3) S2048x2.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S2097152x3 : Shape := ⟨2, ![2097152, 3]⟩
abbrev S2x2 : Shape := ⟨2, ![2, 2]⟩
abbrev S3x2 : Shape := ⟨2, ![3, 2]⟩
abbrev S2x3 : Shape := ⟨2, ![2, 3]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2097152x2, .f32⟩
  | .hbm, ⟨1, _⟩ => ⟨S2097152x2, .f32⟩
  | .hbm, ⟨2, _⟩ => ⟨S2097152x3, .f32⟩
  | .hbm, ⟨3, _⟩ => ⟨S2097152x2, .f32⟩
  | .hbm, ⟨4, _⟩ => ⟨S2x2, .f32⟩
  | .hbm, ⟨5, _⟩ => ⟨S3x2, .f32⟩
  | .hbm, ⟨6, _⟩ => ⟨S2x3, .f32⟩
  | .hbm, ⟨7, _⟩ => ⟨S2x2, .f32⟩
  | .hbm, ⟨8, _⟩ => ⟨S2097152x2, .f32⟩
  | .hbm, ⟨9, _⟩ => ⟨S_, .f32⟩
  | .hbm, ⟨10, _⟩ => ⟨S2097152x2, .f32⟩
  | .hbm, ⟨11, _⟩ => ⟨S2097152x2, .i1⟩
  | .hbm, ⟨12, _⟩ => ⟨S2097152x2, .f32⟩
  | .hbm, ⟨13, _⟩ => ⟨S_, .f32⟩
  | .hbm, ⟨14, _⟩ => ⟨S2097152x2, .f32⟩
  | .hbm, ⟨15, _⟩ => ⟨S2097152x2, .f32⟩
  | .hbm, ⟨16, _⟩ => ⟨S2097152x2, .f32⟩
  | .hbm, ⟨17, _⟩ => ⟨S_, .f32⟩
  | .hbm, ⟨18, _⟩ => ⟨S2097152x2, .f32⟩
  | .hbm, ⟨19, _⟩ => ⟨S2097152x2, .f32⟩
  | .hbm, ⟨20, _⟩ => ⟨S2097152x2, .f32⟩
  | .hbm, ⟨21, _⟩ => ⟨S_, .f32⟩
  | .hbm, ⟨22, _⟩ => ⟨S2097152x2, .f32⟩
  | .hbm, ⟨23, _⟩ => ⟨S2097152x2, .f32⟩
  | .hbm, ⟨24, _⟩ => ⟨S_, .f32⟩
  | .hbm, ⟨25, _⟩ => ⟨S2097152x2, .f32⟩
  | .hbm, ⟨26, _⟩ => ⟨S2097152x2, .i1⟩
  | .hbm, ⟨27, _⟩ => ⟨S2097152x2, .f32⟩
  | .hbm, ⟨28, _⟩ => ⟨S2x3, .f32⟩
  | .hbm, ⟨29, _⟩ => ⟨S2097152x3, .f32⟩
  | .hbm, ⟨30, _⟩ => ⟨S_, .f32⟩
  | .hbm, ⟨31, _⟩ => ⟨S2097152x3, .f32⟩
  | .hbm, ⟨32, _⟩ => ⟨S2097152x3, .i1⟩
  | .hbm, ⟨33, _⟩ => ⟨S2097152x3, .f32⟩
  | .hbm, ⟨34, _⟩ => ⟨S_, .f32⟩
  | .hbm, ⟨35, _⟩ => ⟨S2097152x3, .f32⟩
  | .hbm, ⟨36, _⟩ => ⟨S2097152x3, .f32⟩
  | .hbm, ⟨37, _⟩ => ⟨S2097152x3, .f32⟩
  | .hbm, ⟨38, _⟩ => ⟨S_, .f32⟩
  | .hbm, ⟨39, _⟩ => ⟨S2097152x3, .f32⟩
  | .hbm, ⟨40, _⟩ => ⟨S2097152x3, .f32⟩
  | .hbm, ⟨41, _⟩ => ⟨S2097152x3, .f32⟩
  | .hbm, ⟨42, _⟩ => ⟨S_, .f32⟩
  | .hbm, ⟨43, _⟩ => ⟨S2097152x3, .f32⟩
  | .hbm, ⟨44, _⟩ => ⟨S2097152x3, .f32⟩
  | .hbm, ⟨45, _⟩ => ⟨S_, .f32⟩
  | .hbm, ⟨46, _⟩ => ⟨S2097152x3, .f32⟩
  | .hbm, ⟨47, _⟩ => ⟨S2097152x3, .i1⟩
  | .hbm, ⟨48, _⟩ => ⟨S2097152x3, .f32⟩
  | .hbm, ⟨49, _⟩ => ⟨S3x2, .f32⟩
  | .hbm, ⟨50, _⟩ => ⟨S2097152x2, .f32⟩
  | .hbm, ⟨51, _⟩ => ⟨S_, .f32⟩
  | .hbm, ⟨52, _⟩ => ⟨S2097152x2, .f32⟩
  | .hbm, ⟨53, _⟩ => ⟨S2097152x2, .i1⟩
  | .hbm, ⟨54, _⟩ => ⟨S2097152x2, .f32⟩
  | .hbm, ⟨55, _⟩ => ⟨S_, .f32⟩
  | .hbm, ⟨56, _⟩ => ⟨S2097152x2, .f32⟩
  | .hbm, ⟨57, _⟩ => ⟨S2097152x2, .f32⟩
  | .hbm, ⟨58, _⟩ => ⟨S2097152x2, .f32⟩
  | .hbm, ⟨59, _⟩ => ⟨S_, .f32⟩
  | .hbm, ⟨60, _⟩ => ⟨S2097152x2, .f32⟩
  | .hbm, ⟨61, _⟩ => ⟨S2097152x2, .f32⟩
  | .hbm, ⟨62, _⟩ => ⟨S2097152x2, .f32⟩
  | .hbm, ⟨63, _⟩ => ⟨S_, .f32⟩
  | .hbm, ⟨64, _⟩ => ⟨S2097152x2, .f32⟩
  | .hbm, ⟨65, _⟩ => ⟨S2097152x2, .f32⟩
  | .hbm, ⟨66, _⟩ => ⟨S_, .f32⟩
  | .hbm, ⟨67, _⟩ => ⟨S2097152x2, .f32⟩
  | .hbm, ⟨68, _⟩ => ⟨S2097152x2, .i1⟩
  | .hbm, ⟨69, _⟩ => ⟨S2097152x2, .f32⟩
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  transposes_S2x2_S2x2_1_0 : S2x2.Transposes [1, 0] S2x2
  bcast_S_S2097152x2 : S_.BroadcastsInDim S2097152x2 (![] : Fin 0 → Fin S2097152x2.rank)
  transposes_S3x2_S2x3_1_0 : S3x2.Transposes [1, 0] S2x3
  bcast_S_S2097152x3 : S_.BroadcastsInDim S2097152x3 (![] : Fin 0 → Fin S2097152x3.rank)
  transposes_S2x3_S3x2_1_0 : S2x3.Transposes [1, 0] S3x2
  dot_S2097152x2_S2x2_S2097152x2_1_0_0_1_n_n_wf : DotDims.WF S2097152x2 S2x2 S2097152x2 [1] [0] [0] [1] [] []
  dot_S2097152x2_S2x3_S2097152x3_1_0_0_1_n_n_wf : DotDims.WF S2097152x2 S2x3 S2097152x3 [1] [0] [0] [1] [] []
  dot_S2097152x3_S3x2_S2097152x2_1_0_0_1_n_n_wf : DotDims.WF S2097152x3 S3x2 S2097152x2 [1] [0] [0] [1] [] []

variable [Facts₀]

def dot_S2097152x2_S2x2_S2097152x2_1_0_0_1_n_n : DotDims S2097152x2 S2x2 S2097152x2 where
  lhsContracting := [1]
  rhsContracting := [0]
  lhsNonContracting := [0]
  rhsNonContracting := [1]
  lhsBatch := []
  rhsBatch := []
  wf := dot_S2097152x2_S2x2_S2097152x2_1_0_0_1_n_n_wf
def dot_S2097152x2_S2x3_S2097152x3_1_0_0_1_n_n : DotDims S2097152x2 S2x3 S2097152x3 where
  lhsContracting := [1]
  rhsContracting := [0]
  lhsNonContracting := [0]
  rhsNonContracting := [1]
  lhsBatch := []
  rhsBatch := []
  wf := dot_S2097152x2_S2x3_S2097152x3_1_0_0_1_n_n_wf
def dot_S2097152x3_S3x2_S2097152x2_1_0_0_1_n_n : DotDims S2097152x3 S3x2 S2097152x2 where
  lhsContracting := [1]
  rhsContracting := [0]
  lhsNonContracting := [0]
  rhsNonContracting := [1]
  lhsBatch := []
  rhsBatch := []
  wf := dot_S2097152x3_S3x2_S2097152x2_1_0_0_1_n_n_wf

class Facts : Prop extends Facts₀ where

variable [Facts]
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibLeakyLayer.lean ====
/-
  One layer of a spiking network read at an entry, over the extended reals.

  A layer takes the rows `a` ([M, K]) that the layer before it emits, a weight matrix `b` ([K, N]) and its own membrane
  values `mem` ([M, N]). The input current of row r at neuron c is the product's entry  ∑ k, a (r, k) * b (k, c).
  The membrane value decays by a factor β, the current is added, and the result is cleared where the OLD value was above the
  threshold θ:   (β * mem + cur) * (1 - [mem > θ]).   The neuron spikes where the new value exceeds the threshold:
  [new - θ > 0].   Here [·] is the comparison's bit read as the number 1 or 0.

  Two spellings of one layer are read at an entry (r, c) here, at any extents M, K, N. The vector unit's: constants as
  splats, the product accumulated into a zero splat, the comparison's bit widened to a word and converted as a signed integer.
  The host's: constants as broadcasts of a scalar array, a general dot product with no accumulator, the bit converted as an
  unsigned integer. Both are the SAME expression in the entries of row r of the operands: a widened bit is 0 or 1 whether it is
  read signed or unsigned, and a product accumulated into zero is the product.
-/
import Idealize.ShloMosaic.Lib.ValueIdx
import Idealize.ShloMosaic.Lib.KernelVsHost
import Idealize.ShloMosaic.PureOps.Ideal.Laws
import proofs.«128832_j17188459118719_1_alg».proof.Proof.LibPlainMatmul

noncomputable section

namespace Cert.LeakyLayer

open Idealize.ShloMosaic Idealize.ShloMosaic.ValueIdx

/-- The indicator of `a > b` as a float: the comparison's bit read as the number 1 or 0. -/
def above (a b : EReal) : EReal :=
  FloatOps.uitofp (F := Ideal) .f32 (FloatOps.cmpf (F := Ideal) (φ := .f32) .ogt a b)

/-- One update of a membrane value with reset to zero: decay by `β`, add the input current `cur`, and clear the result where
    the OLD value `mem` was above the threshold `θ`. -/
def lif (β θ one cur mem : EReal) : EReal := (β * mem + cur) * (one - above mem θ)

/-- The spike a membrane value `v` emits: 1 where `v - θ` is above `zero`, else 0. -/
def spike (θ zero v : EReal) : EReal := above (v - θ) zero

variable {M K N : ℕ}

/-- The host's plain product [M, K] x [K, N] at entry (r, c): the sum over k of a (r, k) * b (k, c). -/
theorem hostDot_apply (prec : Option ContractPrecision) (a : FVec Ideal ⟨2, ![M, K]⟩ .f32) (b : FVec Ideal ⟨2, ![K, N]⟩ .f32)
    (r : Fin M) (c : Fin N) :
    Host.dotGeneral (DotDims.plain M K N) prec a b (ix2 r c) = ∑ k : Fin K, a (ix2 r k) * b (ix2 k c) :=
  (congrFun (matmul_zero_eq_dotGeneral (DotDims.plain M K N) prec a b).symm (ix2 r c)).trans
    (Cert.PlainMatmul.apply prec a b r c)

/-- The vector unit's spike, at any shape: the comparison's bit widened to a word and converted signed is the indicator. -/
theorem kernel_spike_apply {s : Shape} (θ zero : Ideal .f32) (v : FVec Ideal s .f32) (h : 1 < 32) (i : s.Idx) :
    (sitofp .f32 (extui 32 (cmpf .ogt (subf v (broadcast s θ)) (broadcast s zero)) h) : FVec Ideal s .f32) i
      = spike θ zero (v i) := by
  rw [sitofp_extui_eq_uitofp]
  rfl

/-- The host's spike, at any shape: the thresholds are broadcasts of scalar constants. -/
theorem host_spike_apply {s s0 : Shape} {dims : Fin s0.rank → Fin s.rank} (hb : s0.BroadcastsInDim s dims)
    (θ zero : BitVec FTy.f32.bits) (v : FVec Ideal s .f32) (i : s.Idx) :
    (uitofp .f32 (cmpf .ogt (subf v (broadcastInDim s dims hb (constant s0 .f32 θ)))
        (broadcastInDim s dims hb (constant s0 .f32 zero))) : FVec Ideal s .f32) i
      = spike (FloatOps.ofBits (F := Ideal) .f32 θ) (FloatOps.ofBits (F := Ideal) .f32 zero) (v i) := rfl

/-- The vector unit's membrane update at entry (r, c). -/
theorem kernel_membrane_apply (prec : Option ContractPrecision) (β θ one : Ideal .f32)
    (a : FVec Ideal ⟨2, ![M, K]⟩ .f32) (b : FVec Ideal ⟨2, ![K, N]⟩ .f32) (mem : FVec Ideal ⟨2, ![M, N]⟩ .f32) (h : 1 < 32)
    (r : Fin M) (c : Fin N) :
    (mulf (addf (mulf (broadcast ⟨2, ![M, N]⟩ β) mem)
          (matmul (DotDims.plain M K N) prec a b (constant ⟨2, ![M, N]⟩ .f32 0x00000000#32)))
        (subf (broadcast ⟨2, ![M, N]⟩ one) (sitofp .f32 (extui 32 (cmpf .ogt mem (broadcast ⟨2, ![M, N]⟩ θ)) h)))
      : FVec Ideal ⟨2, ![M, N]⟩ .f32) (ix2 r c)
      = lif β θ one (∑ k : Fin K, a (ix2 r k) * b (ix2 k c)) (mem (ix2 r c)) := by
  rw [sitofp_extui_eq_uitofp]
  show (β * mem (ix2 r c)
      + FloatOps.matmul (DotDims.plain M K N) prec a b (constant ⟨2, ![M, N]⟩ .f32 0x00000000#32) (ix2 r c))
      * (one - above (mem (ix2 r c)) θ) = _
  rw [Cert.PlainMatmul.apply]
  rfl

/-- The host's membrane update at entry (r, c). -/
theorem host_membrane_apply {s0 : Shape} {dims : Fin s0.rank → Fin (⟨2, ![M, N]⟩ : Shape).rank}
    (hb : s0.BroadcastsInDim ⟨2, ![M, N]⟩ dims) (prec : Option ContractPrecision) (β θ one : BitVec FTy.f32.bits)
    (a : FVec Ideal ⟨2, ![M, K]⟩ .f32) (b : FVec Ideal ⟨2, ![K, N]⟩ .f32) (mem : FVec Ideal ⟨2, ![M, N]⟩ .f32)
    (r : Fin M) (c : Fin N) :
    (mulf (addf (mulf (broadcastInDim ⟨2, ![M, N]⟩ dims hb (constant s0 .f32 β)) mem)
          (Host.dotGeneral (DotDims.plain M K N) prec a b))
        (subf (broadcastInDim ⟨2, ![M, N]⟩ dims hb (constant s0 .f32 one))
          (uitofp .f32 (cmpf .ogt mem (broadcastInDim ⟨2, ![M, N]⟩ dims hb (constant s0 .f32 θ)))))
      : FVec Ideal ⟨2, ![M, N]⟩ .f32) (ix2 r c)
      = lif (FloatOps.ofBits (F := Ideal) .f32 β) (FloatOps.ofBits (F := Ideal) .f32 θ) (FloatOps.ofBits (F := Ideal) .f32 one)
          (∑ k : Fin K, a (ix2 r k) * b (ix2 k c)) (mem (ix2 r c)) := by
  show (FloatOps.ofBits (F := Ideal) .f32 β * mem (ix2 r c) + Host.dotGeneral (DotDims.plain M K N) prec a b (ix2 r c))
      * (FloatOps.ofBits (F := Ideal) .f32 one - above (mem (ix2 r c)) (FloatOps.ofBits (F := Ideal) .f32 θ)) = _
  rw [hostDot_apply]
  rfl

end Cert.LeakyLayer

end
-- ==== Proof.Layers.lean ====
/-
  The network, row by row, over the extended reals.

  Three layers in a chain, each a weight matrix followed by a leaky membrane with reset to zero (LibLeakyLayer.lean's `lif`
  and `spike`), with decay β = the float 0.904837429 (the word 0x3F67A36D), threshold θ = 15, and widths 2 → 2 → 3 → 2:

    mem1' (r, c) = lif (∑ k, x (r, k) * A (k, c)) (mem1 (r, c))                    A : [2, 2]
    mem2' (r, c) = lif (∑ k, spike (mem1' (r, k)) * B (k, c)) (mem2 (r, c))        B : [2, 3]
    mem3' (r, c) = lif (∑ k, spike (mem2' (r, k)) * C (k, c)) (mem3 (r, c))        C : [3, 2]
    spk3  (r, c) = spike (mem3' (r, c))

  Every entry of row r of every result depends on row r of `x`, `mem1`, `mem2`, `mem3` only (and on the three matrices):
  the rows are independent. That is what lets a block of rows be computed by itself: `mem1_congr` … `spk3_congr` say that two
  sets of arrays, of any two heights, that agree on one row of each give the same results on that row.
-/
import proofs.«128832_j17188459118719_1_alg».proof.Proof.LibLeakyLayer

noncomputable section

namespace Cert.Layers

open Idealize.ShloMosaic Idealize.ShloMosaic.ValueIdx Cert.LeakyLayer

/-- The decay factor, the float 0.904837429. -/
abbrev β : Ideal .f32 := FloatOps.ofBits (F := Ideal) .f32 0x3F67A36D#32
/-- The threshold, 15. -/
abbrev θ : Ideal .f32 := FloatOps.ofBits (F := Ideal) .f32 0x41700000#32
/-- The float 1. -/
abbrev one : Ideal .f32 := FloatOps.ofBits (F := Ideal) .f32 0x3F800000#32
/-- The float 0. -/
abbrev zero : Ideal .f32 := FloatOps.ofBits (F := Ideal) .f32 0x00000000#32

variable {M M' : ℕ}

/-- The first layer's new membrane value at row r, neuron c. -/
def mem1 (x m1 : FVec Ideal ⟨2, ![M, 2]⟩ .f32) (A : FVec Ideal ⟨2, ![2, 2]⟩ .f32) (r : Fin M) (c : Fin 2) : EReal :=
  lif β θ one (∑ k : Fin 2, x (ix2 r k) * A (ix2 k c)) (m1 (ix2 r c))

/-- The second layer's, fed by the first layer's spikes. -/
def mem2 (x m1 : FVec Ideal ⟨2, ![M, 2]⟩ .f32) (m2 : FVec Ideal ⟨2, ![M, 3]⟩ .f32) (A : FVec Ideal ⟨2, ![2, 2]⟩ .f32)
    (B : FVec Ideal ⟨2, ![2, 3]⟩ .f32) (r : Fin M) (c : Fin 3) : EReal :=
  lif β θ one (∑ k : Fin 2, spike θ zero (mem1 x m1 A r k) * B (ix2 k c)) (m2 (ix2 r c))

/-- The third layer's, fed by the second layer's spikes. -/
def mem3 (x m1 : FVec Ideal ⟨2, ![M, 2]⟩ .f32) (m2 : FVec Ideal ⟨2, ![M, 3]⟩ .f32) (m3 : FVec Ideal ⟨2, ![M, 2]⟩ .f32)
    (A : FVec Ideal ⟨2, ![2, 2]⟩ .f32) (B : FVec Ideal ⟨2, ![2, 3]⟩ .f32) (C : FVec Ideal ⟨2, ![3, 2]⟩ .f32)
    (r : Fin M) (c : Fin 2) : EReal :=
  lif β θ one (∑ k : Fin 3, spike θ zero (mem2 x m1 m2 A B r k) * C (ix2 k c)) (m3 (ix2 r c))

/-- The third layer's spikes: the network's output. -/
def spk3 (x m1 : FVec Ideal ⟨2, ![M, 2]⟩ .f32) (m2 : FVec Ideal ⟨2, ![M, 3]⟩ .f32) (m3 : FVec Ideal ⟨2, ![M, 2]⟩ .f32)
    (A : FVec Ideal ⟨2, ![2, 2]⟩ .f32) (B : FVec Ideal ⟨2, ![2, 3]⟩ .f32) (C : FVec Ideal ⟨2, ![3, 2]⟩ .f32)
    (r : Fin M) (c : Fin 2) : EReal :=
  spike θ zero (mem3 x m1 m2 m3 A B C r c)

/-! ## The four result arrays, of any height `M`, as functions of an index -/

/-- The first layer's new membrane values as an array. -/
def mem1Arr (x m1 : FVec Ideal ⟨2, ![M, 2]⟩ .f32) (A : FVec Ideal ⟨2, ![2, 2]⟩ .f32) : FVec Ideal ⟨2, ![M, 2]⟩ .f32 :=
  fun i => mem1 x m1 A (i 0) (i 1)

/-- The second layer's. -/
def mem2Arr (x m1 : FVec Ideal ⟨2, ![M, 2]⟩ .f32) (m2 : FVec Ideal ⟨2, ![M, 3]⟩ .f32) (A : FVec Ideal ⟨2, ![2, 2]⟩ .f32)
    (B : FVec Ideal ⟨2, ![2, 3]⟩ .f32) : FVec Ideal ⟨2, ![M, 3]⟩ .f32 :=
  fun i => mem2 x m1 m2 A B (i 0) (i 1)

/-- The third layer's. -/
def mem3Arr (x m1 : FVec Ideal ⟨2, ![M, 2]⟩ .f32) (m2 : FVec Ideal ⟨2, ![M, 3]⟩ .f32) (m3 : FVec Ideal ⟨2, ![M, 2]⟩ .f32)
    (A : FVec Ideal ⟨2, ![2, 2]⟩ .f32) (B : FVec Ideal ⟨2, ![2, 3]⟩ .f32) (C : FVec Ideal ⟨2, ![3, 2]⟩ .f32) :
    FVec Ideal ⟨2, ![M, 2]⟩ .f32 :=
  fun i => mem3 x m1 m2 m3 A B C (i 0) (i 1)

/-- The third layer's spikes. -/
def spk3Arr (x m1 : FVec Ideal ⟨2, ![M, 2]⟩ .f32) (m2 : FVec Ideal ⟨2, ![M, 3]⟩ .f32) (m3 : FVec Ideal ⟨2, ![M, 2]⟩ .f32)
    (A : FVec Ideal ⟨2, ![2, 2]⟩ .f32) (B : FVec Ideal ⟨2, ![2, 3]⟩ .f32) (C : FVec Ideal ⟨2, ![3, 2]⟩ .f32) :
    FVec Ideal ⟨2, ![M, 2]⟩ .f32 :=
  fun i => spk3 x m1 m2 m3 A B C (i 0) (i 1)

section Rows

variable (x m1 : FVec Ideal ⟨2, ![M, 2]⟩ .f32) (m2 : FVec Ideal ⟨2, ![M, 3]⟩ .f32) (m3 : FVec Ideal ⟨2, ![M, 2]⟩ .f32)
  (x' m1' : FVec Ideal ⟨2, ![M', 2]⟩ .f32) (m2' : FVec Ideal ⟨2, ![M', 3]⟩ .f32) (m3' : FVec Ideal ⟨2, ![M', 2]⟩ .f32)
  (A A' : FVec Ideal ⟨2, ![2, 2]⟩ .f32) (B B' : FVec Ideal ⟨2, ![2, 3]⟩ .f32) (C C' : FVec Ideal ⟨2, ![3, 2]⟩ .f32)
  (r : Fin M) (r' : Fin M')

/-- Row r of the first layer's result is a function of row r of `x` and `mem1`. -/
theorem mem1_congr (hx : ∀ k, x (ix2 r k) = x' (ix2 r' k)) (h1 : ∀ k, m1 (ix2 r k) = m1' (ix2 r' k)) (hA : A = A')
    (c : Fin 2) : mem1 x m1 A r c = mem1 x' m1' A' r' c := by
  subst hA
  unfold mem1
  rw [h1 c]
  exact congrArg (fun s => lif β θ one s _) (Finset.sum_congr rfl fun k _ => by rw [hx k])

/-- Row r of the second layer's result is a function of row r of `x`, `mem1` and `mem2`. -/
theorem mem2_congr (hx : ∀ k, x (ix2 r k) = x' (ix2 r' k)) (h1 : ∀ k, m1 (ix2 r k) = m1' (ix2 r' k))
    (h2 : ∀ k, m2 (ix2 r k) = m2' (ix2 r' k)) (hA : A = A') (hB : B = B') (c : Fin 3) :
    mem2 x m1 m2 A B r c = mem2 x' m1' m2' A' B' r' c := by
  subst hB
  unfold mem2
  rw [h2 c]
  exact congrArg (fun s => lif β θ one s _)
    (Finset.sum_congr rfl fun k _ => by rw [mem1_congr x m1 x' m1' A A' r r' hx h1 hA k])

/-- Row r of the third layer's result is a function of row r of `x`, `mem1`, `mem2` and `mem3`. -/
theorem mem3_congr (hx : ∀ k, x (ix2 r k) = x' (ix2 r' k)) (h1 : ∀ k, m1 (ix2 r k) = m1' (ix2 r' k))
    (h2 : ∀ k, m2 (ix2 r k) = m2' (ix2 r' k)) (h3 : ∀ k, m3 (ix2 r k) = m3' (ix2 r' k))
    (hA : A = A') (hB : B = B') (hC : C = C') (c : Fin 2) :
    mem3 x m1 m2 m3 A B C r c = mem3 x' m1' m2' m3' A' B' C' r' c := by
  subst hC
  unfold mem3
  rw [h3 c]
  exact congrArg (fun s => lif β θ one s _)
    (Finset.sum_congr rfl fun k _ => by rw [mem2_congr x m1 m2 x' m1' m2' A A' B B' r r' hx h1 h2 hA hB k])

/-- And so are its spikes. -/
theorem spk3_congr (hx : ∀ k, x (ix2 r k) = x' (ix2 r' k)) (h1 : ∀ k, m1 (ix2 r k) = m1' (ix2 r' k))
    (h2 : ∀ k, m2 (ix2 r k) = m2' (ix2 r' k)) (h3 : ∀ k, m3 (ix2 r k) = m3' (ix2 r' k))
    (hA : A = A') (hB : B = B') (hC : C = C') (c : Fin 2) :
    spk3 x m1 m2 m3 A B C r c = spk3 x' m1' m2' m3' A' B' C' r' c := by
  unfold spk3
  rw [mem3_congr x m1 m2 m3 x' m1' m2' m3' A A' B B' C C' r r' hx h1 h2 h3 hA hB hC c]

end Rows

end Cert.Layers

end
-- ==== Proof.KernelRows.lean ====
/-
  What the kernel's body computes on one block of 2048 rows, entry by entry.

  The body loads a block of `x`, `mem1`, `mem2`, `mem3` (2048 rows each) and the three weight matrices whole, and stores four
  blocks. Read at row p, column q of the block, each stored value is the network of Layers.lean on the block's own rows:

    the block stored to the second result   = mem1 of the block      (the first layer's new membrane values)
    the block stored to the third result    = mem2 of the block
    the block stored to the fourth result   = mem3 of the block
    the block stored to the first result    = spk3 of the block      (the third layer's spikes)

  Each layer is the vector unit's spelling of LibLeakyLayer.lean: the product goes into a zero accumulator, the comparison's bit
  is widened and converted signed. The weight matrices pass through a shape cast to their own shape, which is the identity.
-/
import proofs.«128832_j17188459118719_1_alg».proof.Proof.Gen.KernelIdeal.Skeleton
import proofs.«128832_j17188459118719_1_alg».proof.Proof.Layers
import Idealize.ShloMosaic.Lib.Pipeline.Value

noncomputable section

namespace Cert.KernelIdeal.Rows

open Cert.KernelIdeal Cert.KernelIdeal.Gen Idealize.ShloMosaic Idealize.ShloMosaic.ValueIdx Cert.LeakyLayer Cert.Layers

/-- The first layer on a block: the new membrane values. -/
theorem pay3_apply (x m1 : Vec Ideal S2048x2 .f32) (A : Vec Ideal S2x2 .f32) (p : Fin 2048) (q : Fin 2) :
    k0_pay3 (F := Ideal) x m1 A (ix2 p q) = mem1 x m1 A p q := by
  unfold k0_pay3 mem1
  refine (kernel_membrane_apply (M := 2048) (K := 2) (N := 2) (some .fp32) β θ one x
    (shapeCast S2x2 A shapeCasts_S2x2_S2x2) m1 natLt_1_32 p q).trans ?_
  rw [shapeCast_self]

/-- The second layer on a block, fed by the first layer's spikes on that block. -/
theorem pay4_apply (x m1 : Vec Ideal S2048x2 .f32) (A : Vec Ideal S2x2 .f32) (m2 : Vec Ideal S2048x3 .f32)
    (B : Vec Ideal S2x3 .f32) (p : Fin 2048) (q : Fin 3) :
    k0_pay4 (F := Ideal) x m1 A m2 B (ix2 p q) = mem2 x m1 m2 A B p q := by
  unfold k0_pay4 mem2
  refine (kernel_membrane_apply (M := 2048) (K := 2) (N := 3) (some .fp32) β θ one
    (sitofp .f32 (extui 32 (cmpf .ogt (subf (k0_pay3 (F := Ideal) x m1 A) (broadcast S2048x2 θ)) (broadcast S2048x2 zero)) natLt_1_32))
    (shapeCast S2x3 B shapeCasts_S2x3_S2x3) m2 natLt_1_32 p q).trans ?_
  rw [shapeCast_self]
  refine congrArg (fun s => lif β θ one s _) (Finset.sum_congr rfl fun k _ => ?_)
  rw [kernel_spike_apply, pay3_apply]

/-- A layer of width 3 → 2 on a block, fed by the spikes of ANY block `v` of membrane values. -/
theorem pay1_apply (v : FVec Ideal S2048x3 .f32) (m3 : Vec Ideal S2048x2 .f32) (C : Vec Ideal S3x2 .f32)
    (p : Fin 2048) (q : Fin 2) :
    k0_pay1 (F := Ideal) v m3 C (ix2 p q)
      = lif β θ one (∑ k : Fin 3, spike θ zero (v (ix2 p k)) * C (ix2 k q)) (m3 (ix2 p q)) := by
  unfold k0_pay1
  refine (kernel_membrane_apply (M := 2048) (K := 3) (N := 2) (some .fp32) β θ one
    (sitofp .f32 (extui 32 (cmpf .ogt (subf v (broadcast S2048x3 θ)) (broadcast S2048x3 zero)) natLt_1_32))
    (shapeCast S3x2 C shapeCasts_S3x2_S3x2) m3 natLt_1_32 p q).trans ?_
  rw [shapeCast_self]
  refine congrArg (fun s => lif β θ one s _) (Finset.sum_congr rfl fun k _ => ?_)
  rw [kernel_spike_apply]

/-- The spikes of that layer. -/
theorem pay2_apply (v : FVec Ideal S2048x3 .f32) (m3 : Vec Ideal S2048x2 .f32) (C : Vec Ideal S3x2 .f32)
    (p : Fin 2048) (q : Fin 2) :
    k0_pay2 (F := Ideal) v m3 C (ix2 p q) = spike θ zero (k0_pay1 (F := Ideal) v m3 C (ix2 p q)) := by
  unfold k0_pay2
  exact kernel_spike_apply θ zero (k0_pay1 (F := Ideal) v m3 C) natLt_1_32 (ix2 p q)

/-- The third layer on a block: what the body stores to the fourth result. -/
theorem third_apply (x m1 : Vec Ideal S2048x2 .f32) (A : Vec Ideal S2x2 .f32) (m2 : Vec Ideal S2048x3 .f32)
    (B : Vec Ideal S2x3 .f32) (m3 : Vec Ideal S2048x2 .f32) (C : Vec Ideal S3x2 .f32) (p : Fin 2048) (q : Fin 2) :
    k0_pay1 (F := Ideal) (k0_pay4 (F := Ideal) x m1 A m2 B) m3 C (ix2 p q) = mem3 x m1 m2 m3 A B C p q := by
  rw [pay1_apply]
  unfold mem3
  refine congrArg (fun s => lif β θ one s _) (Finset.sum_congr rfl fun k _ => ?_)
  rw [pay4_apply]

/-- The third layer's spikes on a block: what the body stores to the first result. -/
theorem spikes_apply (x m1 : Vec Ideal S2048x2 .f32) (A : Vec Ideal S2x2 .f32) (m2 : Vec Ideal S2048x3 .f32)
    (B : Vec Ideal S2x3 .f32) (m3 : Vec Ideal S2048x2 .f32) (C : Vec Ideal S3x2 .f32) (p : Fin 2048) (q : Fin 2) :
    k0_pay2 (F := Ideal) (k0_pay4 (F := Ideal) x m1 A m2 B) m3 C (ix2 p q) = spk3 x m1 m2 m3 A B C p q := by
  rw [pay2_apply, third_apply]
  rfl

end Cert.KernelIdeal.Rows

end
-- ==== Proof.KernelArrays.lean ====
/-
  From blocks to arrays: what the kernel's program leaves in its four results.

  The call runs the body at 1024 points; point t stages rows 2048 t … 2048 t + 2047 of `x`, `mem1`, `mem2`, `mem3` and the three
  (already transposed) weight matrices whole, and writes the body's four blocks back to rows 2048 t … 2048 t + 2047 of the four
  results. By KernelRows.lean each written block is the network of Layers.lean on the staged rows; the rows of the network are
  independent (Layers.lean's congruences), so the block written at point t IS block t of the network's array on the WHOLE
  arguments (`flushed7_eq` … `flushed10_eq`). Row r lies in the block of point r / 2048, so the blocks tile each result
  (`cover7` … `cover10`) and each result ends holding the network's array (`final7` … `final10`). The weight matrices the
  call finds are the program's transposes of its arguments (`wA_eq`, `wB_eq`, `wC_eq`). `run` puts this on the program's run.
-/
import proofs.«128832_j17188459118719_1_alg».proof.Proof.Gen.KernelIdeal.Value
import proofs.«128832_j17188459118719_1_alg».proof.Proof.KernelRows
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Cert.KernelIdeal.Rows Idealize.ShloMosaic.ValueIdx Cert.Layers

variable (m : (ℓ : Loc nD τ sig) → Buf (Elt Ideal) ℓ) (ρ : Dev nD → PrngReg)

/-! ## The arrays as the call finds them -/

/-- `x`. -/
abbrev xA (c : Dev nD) : Vec Ideal S2097152x2 .f32 := V m c main_arg0
/-- `mem1`. -/
abbrev m1A (c : Dev nD) : Vec Ideal S2097152x2 .f32 := V m c main_arg1
/-- `mem2`. -/
abbrev m2A (c : Dev nD) : Vec Ideal S2097152x3 .f32 := V m c main_arg2
/-- `mem3`. -/
abbrev m3A (c : Dev nD) : Vec Ideal S2097152x2 .f32 := V m c main_arg3
/-- The first weight matrix, transposed by the program before the call. -/
abbrev wA (c : Dev nD) : Vec Ideal S2x2 .f32 := V m c main_v0
/-- The second. -/
abbrev wB (c : Dev nD) : Vec Ideal S2x3 .f32 := V m c main_v1
/-- The third. -/
abbrev wC (c : Dev nD) : Vec Ideal S3x2 .f32 := V m c main_v2

/-! ## Where each window's block sits: block t of a row window is rows 2048 t … 2048 t + 2047, a weight window's is the matrix -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

/-! ## The input blocks read by rows -/

/-- Row p of `x`'s block at point t is row 2048 t + p of `x`. -/
theorem x_row (c : Dev nD) (t : Fin cfg0.N) (p : Fin 2048) (r : Fin 2097152) (hr : r.val = t.val * 2048 + p.val) (k : Fin 2) :
    (iblk m c 0 t : Vec Ideal S2048x2 .f32) (ix2 p k) = xA m c (ix2 r k) := by
  obtain ⟨e0, e1⟩ := idx0 t
  unfold iblk
  rw [View.read_apply]
  show xA m c _ = xA m c _
  refine congrArg (xA m c) (funext fun a => Fin.ext ?_)
  match a with
  | ⟨0, _⟩ => show win0_0.index t (0 : Fin 2) * 2048 + 1 * p.val = r.val; rw [e0, hr]; omega
  | ⟨1, _⟩ => show win0_0.index t (1 : Fin 2) * 2 + 1 * k.val = k.val; rw [e1]; omega

/-- The same of `mem1`. -/
theorem m1_row (c : Dev nD) (t : Fin cfg0.N) (p : Fin 2048) (r : Fin 2097152) (hr : r.val = t.val * 2048 + p.val) (k : Fin 2) :
    (iblk m c 1 t : Vec Ideal S2048x2 .f32) (ix2 p k) = m1A m c (ix2 r k) := by
  obtain ⟨e0, e1⟩ := idx1 t
  unfold iblk
  rw [View.read_apply]
  show m1A m c _ = m1A m c _
  refine congrArg (m1A m c) (funext fun a => Fin.ext ?_)
  match a with
  | ⟨0, _⟩ => show win0_1.index t (0 : Fin 2) * 2048 + 1 * p.val = r.val; rw [e0, hr]; omega
  | ⟨1, _⟩ => show win0_1.index t (1 : Fin 2) * 2 + 1 * k.val = k.val; rw [e1]; omega

/-- The same of `mem2`. -/
theorem m2_row (c : Dev nD) (t : Fin cfg0.N) (p : Fin 2048) (r : Fin 2097152) (hr : r.val = t.val * 2048 + p.val) (k : Fin 3) :
    (iblk m c 2 t : Vec Ideal S2048x3 .f32) (ix2 p k) = m2A m c (ix2 r k) := by
  obtain ⟨e0, e1⟩ := idx2 t
  unfold iblk
  rw [View.read_apply]
  show m2A m c _ = m2A m c _
  refine congrArg (m2A m c) (funext fun a => Fin.ext ?_)
  match a with
  | ⟨0, _⟩ => show win0_2.index t (0 : Fin 2) * 2048 + 1 * p.val = r.val; rw [e0, hr]; omega
  | ⟨1, _⟩ => show win0_2.index t (1 : Fin 2) * 3 + 1 * k.val = k.val; rw [e1]; omega

/-- The same of `mem3`. -/
theorem m3_row (c : Dev nD) (t : Fin cfg0.N) (p : Fin 2048) (r : Fin 2097152) (hr : r.val = t.val * 2048 + p.val) (k : Fin 2) :
    (iblk m c 3 t : Vec Ideal S2048x2 .f32) (ix2 p k) = m3A m c (ix2 r k) := by
  obtain ⟨e0, e1⟩ := idx3 t
  unfold iblk
  rw [View.read_apply]
  show m3A m c _ = m3A m c _
  refine congrArg (m3A m c) (funext fun a => Fin.ext ?_)
  match a with
  | ⟨0, _⟩ => show win0_3.index t (0 : Fin 2) * 2048 + 1 * p.val = r.val; rw [e0, hr]; omega
  | ⟨1, _⟩ => show win0_3.index t (1 : Fin 2) * 2 + 1 * k.val = k.val; rw [e1]; omega

/-- The first weight window's block, at every point, is the matrix. -/
theorem wA_blk (c : Dev nD) (t : Fin cfg0.N) : (iblk m c 4 t : Vec Ideal S2x2 .f32) = wA m c := by
  obtain ⟨e0, e1⟩ := idx4 t
  funext y
  unfold iblk
  rw [View.read_apply]
  show wA m c _ = wA m c y
  refine congrArg (wA m c) (funext fun a => Fin.ext ?_)
  match a with
  | ⟨0, _⟩ => show win0_4.index t (0 : Fin 2) * 2 + 1 * (y 0).val = (y 0).val; rw [e0]; omega
  | ⟨1, _⟩ => show win0_4.index t (1 : Fin 2) * 2 + 1 * (y 1).val = (y 1).val; rw [e1]; omega

/-- The second's. -/
theorem wB_blk (c : Dev nD) (t : Fin cfg0.N) : (iblk m c 5 t : Vec Ideal S2x3 .f32) = wB m c := by
  obtain ⟨e0, e1⟩ := idx5 t
  funext y
  unfold iblk
  rw [View.read_apply]
  show wB m c _ = wB m c y
  refine congrArg (wB m c) (funext fun a => Fin.ext ?_)
  match a with
  | ⟨0, _⟩ => show win0_5.index t (0 : Fin 2) * 2 + 1 * (y 0).val = (y 0).val; rw [e0]; omega
  | ⟨1, _⟩ => show win0_5.index t (1 : Fin 2) * 3 + 1 * (y 1).val = (y 1).val; rw [e1]; omega

/-- The third's. -/
theorem wC_blk (c : Dev nD) (t : Fin cfg0.N) : (iblk m c 6 t : Vec Ideal S3x2 .f32) = wC m c := by
  obtain ⟨e0, e1⟩ := idx6 t
  funext y
  unfold iblk
  rw [View.read_apply]
  show wC m c _ = wC m c y
  refine congrArg (wC m c) (funext fun a => Fin.ext ?_)
  match a with
  | ⟨0, _⟩ => show win0_6.index t (0 : Fin 2) * 3 + 1 * (y 0).val = (y 0).val; rw [e0]; omega
  | ⟨1, _⟩ => show win0_6.index t (1 : Fin 2) * 2 + 1 * (y 1).val = (y 1).val; rw [e1]; omega

theorem hz : (![0, 0] : Fin 2 → Nat) = fun _ => 0 := funext fun a => by fin_cases a <;> rfl

/-! ## The second result: the first layer's new membrane values -/

/-- What point t writes back to the second result is block t of the first layer's array. -/
theorem flushed8_eq (c : Dev nD) (t : Fin cfg0.N) :
    (dats m 0 c).flushed 8 t = ((cfg0.win 8).blk t).view.read (Elt Ideal) (mem1Arr (xA m c) (m1A m c) (wA m c)) := by
  rw [Value.flushed8]
  unfold out0_8
  rw [View.canon_unit_zero hz]
  simp only [View.ld_unit_zero (S := S2048x2) hz, View.ld_unit_zero (S := S2x2) hz]
  funext j
  have ht : t.val < 1024 := lt_of_lt_of_eq t.isLt N_0
  have hj0 : (j 0).val < 2048 := (j 0).isLt
  have hj1 : (j 1).val < 2 := (j 1).isLt
  obtain ⟨e0, e1⟩ := idx8 t
  have ej : (cfg0.win 8).xinj (grid0.coords t) j = ix2 (⟨(j 0).val, hj0⟩ : Fin 2048) (⟨(j 1).val, hj1⟩ : Fin 2) :=
    funext fun a => by match a with | ⟨0, _⟩ => rfl | ⟨1, _⟩ => rfl
  have ei : ((cfg0.win 8).blk t).view.emb j
      = ix2 (⟨t.val * 2048 + (j 0).val, by omega⟩ : Fin 2097152) (⟨(j 1).val, hj1⟩ : Fin 2) :=
    funext fun a => Fin.ext (by
      match a with
      | ⟨0, _⟩ => show win0_8.index t (0 : Fin 2) * 2048 + 1 * (j 0).val = t.val * 2048 + (j 0).val; rw [e0]; omega
      | ⟨1, _⟩ => show win0_8.index t (1 : Fin 2) * 2 + 1 * (j 1).val = (j 1).val; rw [e1]; omega)
  rw [View.read_apply]
  show k0_pay3 (F := Ideal) (iblk m c 0 t) (iblk m c 1 t) (iblk m c 4 t) ((cfg0.win 8).xinj (grid0.coords t) j)
    = mem1Arr (xA m c) (m1A m c) (wA m c) (((cfg0.win 8).blk t).view.emb j)
  rw [ej, ei]
  refine (pay3_apply (iblk m c 0 t) (iblk m c 1 t) (iblk m c 4 t) _ _).trans ?_
  exact mem1_congr _ _ _ _ _ _ _ _ (fun k => x_row m c t _ _ rfl k) (fun k => m1_row m c t _ _ rfl k) (wA_blk m c t) _

/-! ## The third result: the second layer's new membrane values -/

/-- What point t writes back to the third result is block t of the second layer's array. -/
theorem flushed9_eq (c : Dev nD) (t : Fin cfg0.N) :
    (dats m 0 c).flushed 9 t = ((cfg0.win 9).blk t).view.read (Elt Ideal) (mem2Arr (xA m c) (m1A m c) (m2A m c) (wA m c) (wB m c)) := by
  rw [Value.flushed9]
  unfold out0_9
  rw [View.canon_unit_zero hz]
  simp only [View.ld_unit_zero (S := S2048x2) hz, View.ld_unit_zero (S := S2x2) hz, View.ld_unit_zero (S := S2048x3) hz, View.ld_unit_zero (S := S2x3) hz]
  funext j
  have ht : t.val < 1024 := lt_of_lt_of_eq t.isLt N_0
  have hj0 : (j 0).val < 2048 := (j 0).isLt
  have hj1 : (j 1).val < 3 := (j 1).isLt
  obtain ⟨e0, e1⟩ := idx9 t
  have ej : (cfg0.win 9).xinj (grid0.coords t) j = ix2 (⟨(j 0).val, hj0⟩ : Fin 2048) (⟨(j 1).val, hj1⟩ : Fin 3) :=
    funext fun a => by match a with | ⟨0, _⟩ => rfl | ⟨1, _⟩ => rfl
  have ei : ((cfg0.win 9).blk t).view.emb j
      = ix2 (⟨t.val * 2048 + (j 0).val, by omega⟩ : Fin 2097152) (⟨(j 1).val, hj1⟩ : Fin 3) :=
    funext fun a => Fin.ext (by
      match a with
      | ⟨0, _⟩ => show win0_9.index t (0 : Fin 2) * 2048 + 1 * (j 0).val = t.val * 2048 + (j 0).val; rw [e0]; omega
      | ⟨1, _⟩ => show win0_9.index t (1 : Fin 2) * 3 + 1 * (j 1).val = (j 1).val; rw [e1]; omega)
  rw [View.read_apply]
  show k0_pay4 (F := Ideal) (iblk m c 0 t) (iblk m c 1 t) (iblk m c 4 t) (iblk m c 2 t) (iblk m c 5 t) ((cfg0.win 9).xinj (grid0.coords t) j)
    = mem2Arr (xA m c) (m1A m c) (m2A m c) (wA m c) (wB m c) (((cfg0.win 9).blk t).view.emb j)
  rw [ej, ei]
  refine (pay4_apply (iblk m c 0 t) (iblk m c 1 t) (iblk m c 4 t) (iblk m c 2 t) (iblk m c 5 t) _ _).trans ?_
  exact mem2_congr _ _ _ _ _ _ _ _ _ _ _ _ (fun k => x_row m c t _ _ rfl k) (fun k => m1_row m c t _ _ rfl k) (fun k => m2_row m c t _ _ rfl k) (wA_blk m c t) (wB_blk m c t) _

/-! ## The fourth result: the third layer's new membrane values -/

/-- What point t writes back to the fourth result is block t of the third layer's array. -/
theorem flushed10_eq (c : Dev nD) (t : Fin cfg0.N) :
    (dats m 0 c).flushed 10 t = ((cfg0.win 10).blk t).view.read (Elt Ideal) (mem3Arr (xA m c) (m1A m c) (m2A m c) (m3A m c) (wA m c) (wB m c) (wC m c)) := by
  rw [Value.flushed10]
  unfold out0_10
  rw [View.canon_unit_zero hz]
  simp only [View.ld_unit_zero (S := S2048x2) hz, View.ld_unit_zero (S := S2x2) hz, View.ld_unit_zero (S := S2048x3) hz, View.ld_unit_zero (S := S2x3) hz, View.ld_unit_zero (S := S3x2) hz]
  funext j
  have ht : t.val < 1024 := lt_of_lt_of_eq t.isLt N_0
  have hj0 : (j 0).val < 2048 := (j 0).isLt
  have hj1 : (j 1).val < 2 := (j 1).isLt
  obtain ⟨e0, e1⟩ := idx10 t
  have ej : (cfg0.win 10).xinj (grid0.coords t) j = ix2 (⟨(j 0).val, hj0⟩ : Fin 2048) (⟨(j 1).val, hj1⟩ : Fin 2) :=
    funext fun a => by match a with | ⟨0, _⟩ => rfl | ⟨1, _⟩ => rfl
  have ei : ((cfg0.win 10).blk t).view.emb j
      = ix2 (⟨t.val * 2048 + (j 0).val, by omega⟩ : Fin 2097152) (⟨(j 1).val, hj1⟩ : Fin 2) :=
    funext fun a => Fin.ext (by
      match a with
      | ⟨0, _⟩ => show win0_10.index t (0 : Fin 2) * 2048 + 1 * (j 0).val = t.val * 2048 + (j 0).val; rw [e0]; omega
      | ⟨1, _⟩ => show win0_10.index t (1 : Fin 2) * 2 + 1 * (j 1).val = (j 1).val; rw [e1]; omega)
  rw [View.read_apply]
  show k0_pay1 (F := Ideal) (k0_pay4 (F := Ideal) (iblk m c 0 t) (iblk m c 1 t) (iblk m c 4 t) (iblk m c 2 t) (iblk m c 5 t)) (iblk m c 3 t) (iblk m c 6 t) ((cfg0.win 10).xinj (grid0.coords t) j)
    = mem3Arr (xA m c) (m1A m c) (m2A m c) (m3A m c) (wA m c) (wB m c) (wC m c) (((cfg0.win 10).blk t).view.emb j)
  rw [ej, ei]
  refine (third_apply (iblk m c 0 t) (iblk m c 1 t) (iblk m c 4 t) (iblk m c 2 t) (iblk m c 5 t) (iblk m c 3 t) (iblk m c 6 t) _ _).trans ?_
  exact mem3_congr _ _ _ _ _ _ _ _ _ _ _ _ _ _ _ _ (fun k => x_row m c t _ _ rfl k) (fun k => m1_row m c t _ _ rfl k) (fun k => m2_row m c t _ _ rfl k) (fun k => m3_row m c t _ _ rfl k) (wA_blk m c t) (wB_blk m c t) (wC_blk m c t) _

/-! ## The first result: the third layer's spikes -/

/-- What point t writes back to the first result is block t of the array of the third layer's spikes. -/
theorem flushed7_eq (c : Dev nD) (t : Fin cfg0.N) :
    (dats m 0 c).flushed 7 t = ((cfg0.win 7).blk t).view.read (Elt Ideal) (spk3Arr (xA m c) (m1A m c) (m2A m c) (m3A m c) (wA m c) (wB m c) (wC m c)) := by
  rw [Value.flushed7]
  unfold out0_7
  rw [View.canon_unit_zero hz]
  simp only [View.ld_unit_zero (S := S2048x2) hz, View.ld_unit_zero (S := S2x2) hz, View.ld_unit_zero (S := S2048x3) hz, View.ld_unit_zero (S := S2x3) hz, View.ld_unit_zero (S := S3x2) hz]
  funext j
  have ht : t.val < 1024 := lt_of_lt_of_eq t.isLt N_0
  have hj0 : (j 0).val < 2048 := (j 0).isLt
  have hj1 : (j 1).val < 2 := (j 1).isLt
  obtain ⟨e0, e1⟩ := idx7 t
  have ej : (cfg0.win 7).xinj (grid0.coords t) j = ix2 (⟨(j 0).val, hj0⟩ : Fin 2048) (⟨(j 1).val, hj1⟩ : Fin 2) :=
    funext fun a => by match a with | ⟨0, _⟩ => rfl | ⟨1, _⟩ => rfl
  have ei : ((cfg0.win 7).blk t).view.emb j
      = ix2 (⟨t.val * 2048 + (j 0).val, by omega⟩ : Fin 2097152) (⟨(j 1).val, hj1⟩ : Fin 2) :=
    funext fun a => Fin.ext (by
      match a with
      | ⟨0, _⟩ => show win0_7.index t (0 : Fin 2) * 2048 + 1 * (j 0).val = t.val * 2048 + (j 0).val; rw [e0]; omega
      | ⟨1, _⟩ => show win0_7.index t (1 : Fin 2) * 2 + 1 * (j 1).val = (j 1).val; rw [e1]; omega)
  rw [View.read_apply]
  show k0_pay2 (F := Ideal) (k0_pay4 (F := Ideal) (iblk m c 0 t) (iblk m c 1 t) (iblk m c 4 t) (iblk m c 2 t) (iblk m c 5 t)) (iblk m c 3 t) (iblk m c 6 t) ((cfg0.win 7).xinj (grid0.coords t) j)
    = spk3Arr (xA m c) (m1A m c) (m2A m c) (m3A m c) (wA m c) (wB m c) (wC m c) (((cfg0.win 7).blk t).view.emb j)
  rw [ej, ei]
  refine (spikes_apply (iblk m c 0 t) (iblk m c 1 t) (iblk m c 4 t) (iblk m c 2 t) (iblk m c 5 t) (iblk m c 3 t) (iblk m c 6 t) _ _).trans ?_
  exact spk3_congr _ _ _ _ _ _ _ _ _ _ _ _ _ _ _ _ (fun k => x_row m c t _ _ rfl k) (fun k => m1_row m c t _ _ rfl k) (fun k => m2_row m c t _ _ rfl k) (fun k => m3_row m c t _ _ rfl k) (wA_blk m c t) (wB_blk m c t) (wC_blk m c t) _

/-! ## The blocks tile the results -/

/-- An index of the array lies in point t's block when each coordinate lies in the block's range on its axis. -/
theorem mem_blk7 (t : Fin cfg0.N) (i : S2097152x2.Idx) :
    i ∈ ((cfg0.win 7).blk t).view.set
      ↔ ∀ a : Fin 2, win0_7.index t a * S2048x2.size a ≤ (i a).val ∧ (i a).val < win0_7.index t a * S2048x2.size a + S2048x2.size a := by
  show i ∈ ((View.whole main_v3_0).slice (win0_7.rect t)).set ↔ _
  rw [View.set_slice_whole, Rect.mem_set_unit]
  exact Iff.rfl

/-- Every row r lies in the block of point r / 2048: the 1024 blocks of 2048 rows tile the 2097152 rows. -/
theorem cover7 (i : S2097152x2.Idx) : ∃ t : Fin cfg0.N, (cfg0.win 7).flush t = true ∧ i ∈ ((cfg0.win 7).blk t).view.set := by
  have hi0 : (i 0).val < 2097152 := (i 0).isLt
  have hi1 : (i 1).val < 2 := (i 1).isLt
  have hq : (i 0).val / 2048 < cfg0.N := lt_of_lt_of_eq (by omega : (i 0).val / 2048 < 1024) N_0.symm
  obtain ⟨e0, e1⟩ := idx7 ⟨(i 0).val / 2048, hq⟩
  refine ⟨⟨(i 0).val / 2048, hq⟩, flush0_7 _, ?_⟩
  rw [mem_blk7]
  intro a
  match a with
  | ⟨0, _⟩ =>
    show win0_7.index ⟨(i 0).val / 2048, hq⟩ (0 : Fin 2) * 2048 ≤ (i 0).val
      ∧ (i 0).val < win0_7.index ⟨(i 0).val / 2048, hq⟩ (0 : Fin 2) * 2048 + 2048
    rw [e0]
    show (i 0).val / 2048 * 2048 ≤ (i 0).val ∧ (i 0).val < (i 0).val / 2048 * 2048 + 2048
    omega
  | ⟨1, _⟩ =>
    show win0_7.index ⟨(i 0).val / 2048, hq⟩ (1 : Fin 2) * 2 ≤ (i 1).val
      ∧ (i 1).val < win0_7.index ⟨(i 0).val / 2048, hq⟩ (1 : Fin 2) * 2 + 2
    rw [e1]
    omega

/-- An index of the array lies in point t's block when each coordinate lies in the block's range on its axis. -/
theorem mem_blk8 (t : Fin cfg0.N) (i : S2097152x2.Idx) :
    i ∈ ((cfg0.win 8).blk t).view.set
      ↔ ∀ a : Fin 2, win0_8.index t a * S2048x2.size a ≤ (i a).val ∧ (i a).val < win0_8.index t a * S2048x2.size a + S2048x2.size a := by
  show i ∈ ((View.whole main_v3_1).slice (win0_8.rect t)).set ↔ _
  rw [View.set_slice_whole, Rect.mem_set_unit]
  exact Iff.rfl

/-- Every row r lies in the block of point r / 2048: the 1024 blocks of 2048 rows tile the 2097152 rows. -/
theorem cover8 (i : S2097152x2.Idx) : ∃ t : Fin cfg0.N, (cfg0.win 8).flush t = true ∧ i ∈ ((cfg0.win 8).blk t).view.set := by
  have hi0 : (i 0).val < 2097152 := (i 0).isLt
  have hi1 : (i 1).val < 2 := (i 1).isLt
  have hq : (i 0).val / 2048 < cfg0.N := lt_of_lt_of_eq (by omega : (i 0).val / 2048 < 1024) N_0.symm
  obtain ⟨e0, e1⟩ := idx8 ⟨(i 0).val / 2048, hq⟩
  refine ⟨⟨(i 0).val / 2048, hq⟩, flush0_8 _, ?_⟩
  rw [mem_blk8]
  intro a
  match a with
  | ⟨0, _⟩ =>
    show win0_8.index ⟨(i 0).val / 2048, hq⟩ (0 : Fin 2) * 2048 ≤ (i 0).val
      ∧ (i 0).val < win0_8.index ⟨(i 0).val / 2048, hq⟩ (0 : Fin 2) * 2048 + 2048
    rw [e0]
    show (i 0).val / 2048 * 2048 ≤ (i 0).val ∧ (i 0).val < (i 0).val / 2048 * 2048 + 2048
    omega
  | ⟨1, _⟩ =>
    show win0_8.index ⟨(i 0).val / 2048, hq⟩ (1 : Fin 2) * 2 ≤ (i 1).val
      ∧ (i 1).val < win0_8.index ⟨(i 0).val / 2048, hq⟩ (1 : Fin 2) * 2 + 2
    rw [e1]
    omega

/-- An index of the array lies in point t's block when each coordinate lies in the block's range on its axis. -/
theorem mem_blk9 (t : Fin cfg0.N) (i : S2097152x3.Idx) :
    i ∈ ((cfg0.win 9).blk t).view.set
      ↔ ∀ a : Fin 2, win0_9.index t a * S2048x3.size a ≤ (i a).val ∧ (i a).val < win0_9.index t a * S2048x3.size a + S2048x3.size a := by
  show i ∈ ((View.whole main_v3_2).slice (win0_9.rect t)).set ↔ _
  rw [View.set_slice_whole, Rect.mem_set_unit]
  exact Iff.rfl

/-- Every row r lies in the block of point r / 2048: the 1024 blocks of 2048 rows tile the 2097152 rows. -/
theorem cover9 (i : S2097152x3.Idx) : ∃ t : Fin cfg0.N, (cfg0.win 9).flush t = true ∧ i ∈ ((cfg0.win 9).blk t).view.set := by
  have hi0 : (i 0).val < 2097152 := (i 0).isLt
  have hi1 : (i 1).val < 3 := (i 1).isLt
  have hq : (i 0).val / 2048 < cfg0.N := lt_of_lt_of_eq (by omega : (i 0).val / 2048 < 1024) N_0.symm
  obtain ⟨e0, e1⟩ := idx9 ⟨(i 0).val / 2048, hq⟩
  refine ⟨⟨(i 0).val / 2048, hq⟩, flush0_9 _, ?_⟩
  rw [mem_blk9]
  intro a
  match a with
  | ⟨0, _⟩ =>
    show win0_9.index ⟨(i 0).val / 2048, hq⟩ (0 : Fin 2) * 2048 ≤ (i 0).val
      ∧ (i 0).val < win0_9.index ⟨(i 0).val / 2048, hq⟩ (0 : Fin 2) * 2048 + 2048
    rw [e0]
    show (i 0).val / 2048 * 2048 ≤ (i 0).val ∧ (i 0).val < (i 0).val / 2048 * 2048 + 2048
    omega
  | ⟨1, _⟩ =>
    show win0_9.index ⟨(i 0).val / 2048, hq⟩ (1 : Fin 2) * 3 ≤ (i 1).val
      ∧ (i 1).val < win0_9.index ⟨(i 0).val / 2048, hq⟩ (1 : Fin 2) * 3 + 3
    rw [e1]
    omega

/-- An index of the array lies in point t's block when each coordinate lies in the block's range on its axis. -/
theorem mem_blk10 (t : Fin cfg0.N) (i : S2097152x2.Idx) :
    i ∈ ((cfg0.win 10).blk t).view.set
      ↔ ∀ a : Fin 2, win0_10.index t a * S2048x2.size a ≤ (i a).val ∧ (i a).val < win0_10.index t a * S2048x2.size a + S2048x2.size a := by
  show i ∈ ((View.whole main_v3_3).slice (win0_10.rect t)).set ↔ _
  rw [View.set_slice_whole, Rect.mem_set_unit]
  exact Iff.rfl

/-- Every row r lies in the block of point r / 2048: the 1024 blocks of 2048 rows tile the 2097152 rows. -/
theorem cover10 (i : S2097152x2.Idx) : ∃ t : Fin cfg0.N, (cfg0.win 10).flush t = true ∧ i ∈ ((cfg0.win 10).blk t).view.set := by
  have hi0 : (i 0).val < 2097152 := (i 0).isLt
  have hi1 : (i 1).val < 2 := (i 1).isLt
  have hq : (i 0).val / 2048 < cfg0.N := lt_of_lt_of_eq (by omega : (i 0).val / 2048 < 1024) N_0.symm
  obtain ⟨e0, e1⟩ := idx10 ⟨(i 0).val / 2048, hq⟩
  refine ⟨⟨(i 0).val / 2048, hq⟩, flush0_10 _, ?_⟩
  rw [mem_blk10]
  intro a
  match a with
  | ⟨0, _⟩ =>
    show win0_10.index ⟨(i 0).val / 2048, hq⟩ (0 : Fin 2) * 2048 ≤ (i 0).val
      ∧ (i 0).val < win0_10.index ⟨(i 0).val / 2048, hq⟩ (0 : Fin 2) * 2048 + 2048
    rw [e0]
    show (i 0).val / 2048 * 2048 ≤ (i 0).val ∧ (i 0).val < (i 0).val / 2048 * 2048 + 2048
    omega
  | ⟨1, _⟩ =>
    show win0_10.index ⟨(i 0).val / 2048, hq⟩ (1 : Fin 2) * 2 ≤ (i 1).val
      ∧ (i 1).val < win0_10.index ⟨(i 0).val / 2048, hq⟩ (1 : Fin 2) * 2 + 2
    rw [e1]
    omega

/-! ## The results, whole -/

/-- So the first result ends holding that array whole. -/
theorem final7 (c : Dev nD) : (dats m 0 c).arrAt 7 cfg0.N = spk3Arr (xA m c) (m1A m c) (m2A m c) (m3A m c) (wA m c) (wB m c) (wC m c) :=
  (dats m 0 c).arrAt_eq_of_cover 7 _ (fun t _ => flushed7_eq m c t) cover7

/-- So the second result ends holding that array whole. -/
theorem final8 (c : Dev nD) : (dats m 0 c).arrAt 8 cfg0.N = mem1Arr (xA m c) (m1A m c) (wA m c) :=
  (dats m 0 c).arrAt_eq_of_cover 8 _ (fun t _ => flushed8_eq m c t) cover8

/-- So the third result ends holding that array whole. -/
theorem final9 (c : Dev nD) : (dats m 0 c).arrAt 9 cfg0.N = mem2Arr (xA m c) (m1A m c) (m2A m c) (wA m c) (wB m c) :=
  (dats m 0 c).arrAt_eq_of_cover 9 _ (fun t _ => flushed9_eq m c t) cover9

/-- So the fourth result ends holding that array whole. -/
theorem final10 (c : Dev nD) : (dats m 0 c).arrAt 10 cfg0.N = mem3Arr (xA m c) (m1A m c) (m2A m c) (m3A m c) (wA m c) (wB m c) (wC m c) :=
  (dats m 0 c).arrAt_eq_of_cover 10 _ (fun t _ => flushed10_eq m c t) cover10

/-! ## The arrays the call finds, in terms of the program's arguments -/

/-- The first weight matrix the call finds is the argument transposed: the program's first host operation. -/
theorem wA_eq (c : Dev nD) :
    wA m c = transpose S2x2 [1, 0] (m ((c : Thread nD τ).loc main_arg4)) transposes_S2x2_S2x2_1_0 := by
  dsimp only [wA, V, hostOps0]; after_results

/-- The second: its second host operation. -/
theorem wB_eq (c : Dev nD) :
    wB m c = transpose S2x3 [1, 0] (m ((c : Thread nD τ).loc main_arg5)) transposes_S3x2_S2x3_1_0 := by
  dsimp only [wB, V, hostOps0]; after_results

/-- The third: its third. -/
theorem wC_eq (c : Dev nD) :
    wC m c = transpose S3x2 [1, 0] (m ((c : Thread nD τ).loc main_arg6)) transposes_S2x3_S3x2_1_0 := by
  dsimp only [wC, V, hostOps0]; after_results

/-! ## The run, read -/

/-- Every weakly fair execution of the program terminates with the four results at the network's four arrays of the
    arguments (the weight matrices transposed), the arguments unchanged. -/
theorem run : θ_run defs (onTc (τ := τ) (main (F := Ideal))) ⟨m, fun _ => 0, ρ⟩ fun r => ∀ c : Dev nD,
      r.2.mem ((c : Thread nD τ).loc main_v3_0) = spk3Arr (m ((c : Thread nD τ).loc main_arg0)) (m ((c : Thread nD τ).loc main_arg1))
          (m ((c : Thread nD τ).loc main_arg2)) (m ((c : Thread nD τ).loc main_arg3))
          (transpose S2x2 [1, 0] (m ((c : Thread nD τ).loc main_arg4)) transposes_S2x2_S2x2_1_0)
          (transpose S2x3 [1, 0] (m ((c : Thread nD τ).loc main_arg5)) transposes_S3x2_S2x3_1_0)
          (transpose S3x2 [1, 0] (m ((c : Thread nD τ).loc main_arg6)) transposes_S2x3_S3x2_1_0)
      ∧ r.2.mem ((c : Thread nD τ).loc main_v3_1) = mem1Arr (m ((c : Thread nD τ).loc main_arg0)) (m ((c : Thread nD τ).loc main_arg1))
          (transpose S2x2 [1, 0] (m ((c : Thread nD τ).loc main_arg4)) transposes_S2x2_S2x2_1_0)
      ∧ r.2.mem ((c : Thread nD τ).loc main_v3_2) = mem2Arr (m ((c : Thread nD τ).loc main_arg0)) (m ((c : Thread nD τ).loc main_arg1))
          (m ((c : Thread nD τ).loc main_arg2))
          (transpose S2x2 [1, 0] (m ((c : Thread nD τ).loc main_arg4)) transposes_S2x2_S2x2_1_0)
          (transpose S2x3 [1, 0] (m ((c : Thread nD τ).loc main_arg5)) transposes_S3x2_S2x3_1_0)
      ∧ r.2.mem ((c : Thread nD τ).loc main_v3_3) = mem3Arr (m ((c : Thread nD τ).loc main_arg0)) (m ((c : Thread nD τ).loc main_arg1))
          (m ((c : Thread nD τ).loc main_arg2)) (m ((c : Thread nD τ).loc main_arg3))
          (transpose S2x2 [1, 0] (m ((c : Thread nD τ).loc main_arg4)) transposes_S2x2_S2x2_1_0)
          (transpose S2x3 [1, 0] (m ((c : Thread nD τ).loc main_arg5)) transposes_S3x2_S2x3_1_0)
          (transpose S3x2 [1, 0] (m ((c : Thread nD τ).loc main_arg6)) transposes_S2x3_S3x2_1_0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (Value.run_blocks m ρ)
  obtain ⟨h0, h1, h2, h3, hk⟩ := h c
  have ex : xA m c = m ((c : Thread nD τ).loc main_arg0) := V_main_arg0 m c
  have e1 : m1A m c = m ((c : Thread nD τ).loc main_arg1) := V_main_arg1 m c
  have e2 : m2A m c = m ((c : Thread nD τ).loc main_arg2) := V_main_arg2 m c
  have e3 : m3A m c = m ((c : Thread nD τ).loc main_arg3) := V_main_arg3 m c
  refine ⟨?_, ?_, ?_, ?_, hk⟩
  · rw [h0, final7, ex, e1, e2, e3, wA_eq, wB_eq, wC_eq]
  · rw [h1, final8, ex, e1, wA_eq]
  · rw [h2, final9, ex, e1, e2, wA_eq, wB_eq]
  · rw [h3, final10, ex, e1, e2, e3, wA_eq, wB_eq, wC_eq]

end Cert.KernelIdeal.Arrays

end
-- ==== Proof.ReferenceRows.lean ====
/-
  The reference is the network of Layers.lean on the whole arrays.

  The reference applies, to the whole arrays of 2097152 rows, the host's spelling of each layer (LibLeakyLayer.lean): the
  constants β, 1, 15, 0 as broadcasts of scalar arrays, a general dot product of the rows with a weight matrix (which the
  program has transposed beforehand: here it is any matrix `A`, `B`, `C` of the right shape), the comparison's bit converted
  unsigned. `layer1`, `layer2`, `layer3` and `output` are the four results as the program composes them; each is read at an
  entry (r, c) and is the corresponding array of Layers.lean.
-/
import proofs.«128832_j17188459118719_1_alg».proof.Proof.Gen.ReferenceIdeal.Run
import proofs.«128832_j17188459118719_1_alg».proof.Proof.Layers

noncomputable section

namespace Cert.ReferenceIdeal.Rows

open Cert.ReferenceIdeal Cert.ReferenceIdeal.Gen Idealize.ShloMosaic Idealize.ShloMosaic.ValueIdx Cert.LeakyLayer Cert.Layers

/-- A scalar constant broadcast over a [2097152, 2] array. -/
abbrev splat2 (b : BitVec FTy.f32.bits) : FVec Ideal S2097152x2 .f32 :=
  broadcastInDim S2097152x2 ![] bcast_S_S2097152x2 (constant (F := Ideal) S_ .f32 b)
/-- A scalar constant broadcast over a [2097152, 3] array. -/
abbrev splat3 (b : BitVec FTy.f32.bits) : FVec Ideal S2097152x3 .f32 :=
  broadcastInDim S2097152x3 ![] bcast_S_S2097152x3 (constant (F := Ideal) S_ .f32 b)

/-- The spikes of an array of membrane values of width 2. -/
abbrev spikes2 (v : FVec Ideal S2097152x2 .f32) : FVec Ideal S2097152x2 .f32 :=
  uitofp .f32 (cmpf .ogt (subf v (splat2 0x41700000#32)) (splat2 0x00000000#32))
/-- The spikes of an array of membrane values of width 3. -/
abbrev spikes3 (v : FVec Ideal S2097152x3 .f32) : FVec Ideal S2097152x3 .f32 :=
  uitofp .f32 (cmpf .ogt (subf v (splat3 0x41700000#32)) (splat3 0x00000000#32))

/-- The first layer's new membrane values, as the reference composes them. -/
abbrev layer1 (x m1 : FVec Ideal S2097152x2 .f32) (A : FVec Ideal S2x2 .f32) : FVec Ideal S2097152x2 .f32 :=
  mulf (addf (mulf (splat2 0x3F67A36D#32) m1) (Host.dotGeneral dot_S2097152x2_S2x2_S2097152x2_1_0_0_1_n_n none x A))
    (subf (splat2 0x3F800000#32) (uitofp .f32 (cmpf .ogt m1 (splat2 0x41700000#32))))

/-- The second layer's. -/
abbrev layer2 (x m1 : FVec Ideal S2097152x2 .f32) (m2 : FVec Ideal S2097152x3 .f32) (A : FVec Ideal S2x2 .f32)
    (B : FVec Ideal S2x3 .f32) : FVec Ideal S2097152x3 .f32 :=
  mulf (addf (mulf (splat3 0x3F67A36D#32) m2)
      (Host.dotGeneral dot_S2097152x2_S2x3_S2097152x3_1_0_0_1_n_n none (spikes2 (layer1 x m1 A)) B))
    (subf (splat3 0x3F800000#32) (uitofp .f32 (cmpf .ogt m2 (splat3 0x41700000#32))))

/-- The third layer's. -/
abbrev layer3 (x m1 : FVec Ideal S2097152x2 .f32) (m2 : FVec Ideal S2097152x3 .f32) (m3 : FVec Ideal S2097152x2 .f32)
    (A : FVec Ideal S2x2 .f32) (B : FVec Ideal S2x3 .f32) (C : FVec Ideal S3x2 .f32) : FVec Ideal S2097152x2 .f32 :=
  mulf (addf (mulf (splat2 0x3F67A36D#32) m3)
      (Host.dotGeneral dot_S2097152x3_S3x2_S2097152x2_1_0_0_1_n_n none (spikes3 (layer2 x m1 m2 A B)) C))
    (subf (splat2 0x3F800000#32) (uitofp .f32 (cmpf .ogt m3 (splat2 0x41700000#32))))

/-- The third layer's spikes: the first result. -/
abbrev output (x m1 : FVec Ideal S2097152x2 .f32) (m2 : FVec Ideal S2097152x3 .f32) (m3 : FVec Ideal S2097152x2 .f32)
    (A : FVec Ideal S2x2 .f32) (B : FVec Ideal S2x3 .f32) (C : FVec Ideal S3x2 .f32) : FVec Ideal S2097152x2 .f32 :=
  spikes2 (layer3 x m1 m2 m3 A B C)

theorem layer1_apply (x m1 : FVec Ideal S2097152x2 .f32) (A : FVec Ideal S2x2 .f32) (r : Fin 2097152) (c : Fin 2) :
    layer1 x m1 A (ix2 r c) = mem1 x m1 A r c :=
  host_membrane_apply (M := 2097152) (K := 2) (N := 2) bcast_S_S2097152x2 none
    0x3F67A36D#32 0x41700000#32 0x3F800000#32 x A m1 r c

theorem layer2_apply (x m1 : FVec Ideal S2097152x2 .f32) (m2 : FVec Ideal S2097152x3 .f32) (A : FVec Ideal S2x2 .f32)
    (B : FVec Ideal S2x3 .f32) (r : Fin 2097152) (c : Fin 3) :
    layer2 x m1 m2 A B (ix2 r c) = mem2 x m1 m2 A B r c := by
  refine (host_membrane_apply (M := 2097152) (K := 2) (N := 3) bcast_S_S2097152x3 none
    0x3F67A36D#32 0x41700000#32 0x3F800000#32 (spikes2 (layer1 x m1 A)) B m2 r c).trans ?_
  unfold mem2
  refine congrArg (fun s => lif β θ one s _) (Finset.sum_congr rfl fun k _ => ?_)
  rw [← layer1_apply x m1 A r k]
  rfl

theorem layer3_apply (x m1 : FVec Ideal S2097152x2 .f32) (m2 : FVec Ideal S2097152x3 .f32) (m3 : FVec Ideal S2097152x2 .f32)
    (A : FVec Ideal S2x2 .f32) (B : FVec Ideal S2x3 .f32) (C : FVec Ideal S3x2 .f32) (r : Fin 2097152) (c : Fin 2) :
    layer3 x m1 m2 m3 A B C (ix2 r c) = mem3 x m1 m2 m3 A B C r c := by
  refine (host_membrane_apply (M := 2097152) (K := 3) (N := 2) bcast_S_S2097152x2 none
    0x3F67A36D#32 0x41700000#32 0x3F800000#32 (spikes3 (layer2 x m1 m2 A B)) C m3 r c).trans ?_
  unfold mem3
  refine congrArg (fun s => lif β θ one s _) (Finset.sum_congr rfl fun k _ => ?_)
  rw [← layer2_apply x m1 m2 A B r k]
  rfl

/-- The reference's second result is the first layer's array. -/
theorem layer1_eq (x m1 : FVec Ideal S2097152x2 .f32) (A : FVec Ideal S2x2 .f32) : layer1 x m1 A = mem1Arr x m1 A := by
  funext i
  obtain ⟨r, c, rfl⟩ : ∃ (r : Fin 2097152) (c : Fin 2), i = ix2 r c := ⟨i 0, i 1, eq_ix2 i⟩
  exact layer1_apply x m1 A r c

/-- Its third result is the second layer's. -/
theorem layer2_eq (x m1 : FVec Ideal S2097152x2 .f32) (m2 : FVec Ideal S2097152x3 .f32) (A : FVec Ideal S2x2 .f32)
    (B : FVec Ideal S2x3 .f32) : layer2 x m1 m2 A B = mem2Arr x m1 m2 A B := by
  funext i
  obtain ⟨r, c, rfl⟩ : ∃ (r : Fin 2097152) (c : Fin 3), i = ix2 r c := ⟨i 0, i 1, eq_ix2 i⟩
  exact layer2_apply x m1 m2 A B r c

/-- Its fourth result is the third layer's. -/
theorem layer3_eq (x m1 : FVec Ideal S2097152x2 .f32) (m2 : FVec Ideal S2097152x3 .f32) (m3 : FVec Ideal S2097152x2 .f32)
    (A : FVec Ideal S2x2 .f32) (B : FVec Ideal S2x3 .f32) (C : FVec Ideal S3x2 .f32) :
    layer3 x m1 m2 m3 A B C = mem3Arr x m1 m2 m3 A B C := by
  funext i
  obtain ⟨r, c, rfl⟩ : ∃ (r : Fin 2097152) (c : Fin 2), i = ix2 r c := ⟨i 0, i 1, eq_ix2 i⟩
  exact layer3_apply x m1 m2 m3 A B C r c

/-- Its first result is the third layer's spikes. -/
theorem output_eq (x m1 : FVec Ideal S2097152x2 .f32) (m2 : FVec Ideal S2097152x3 .f32) (m3 : FVec Ideal S2097152x2 .f32)
    (A : FVec Ideal S2x2 .f32) (B : FVec Ideal S2x3 .f32) (C : FVec Ideal S3x2 .f32) :
    output x m1 m2 m3 A B C = spk3Arr x m1 m2 m3 A B C := by
  funext i
  obtain ⟨r, c, rfl⟩ : ∃ (r : Fin 2097152) (c : Fin 2), i = ix2 r c := ⟨i 0, i 1, eq_ix2 i⟩
  show spike θ zero (layer3 x m1 m2 m3 A B C (ix2 r c)) = spike θ zero (mem3 x m1 m2 m3 A B C r c)
  rw [layer3_apply]

end Cert.ReferenceIdeal.Rows

end
-- ==== Proof.lean ====
/-
  A three-layer spiking network on 2097152 independent rows: the kernel against its jnp reference, over the extended reals.

  Each layer is a weight matrix followed by a leaky membrane with reset to zero: with input current cur = (previous spikes) · Wᵀ,
      mem' = (β · mem + cur) · (1 − [mem > 15]),      spikes = [mem' − 15 > 0],
  β the float 0.904837429 and [·] the comparison's bit read as 1 or 0; the widths are 2 → 2 → 3 → 2 and the results are the
  last layer's spikes and the three new membrane arrays (Proof/Layers.lean states this row by row).

  The reference computes it on the whole arrays with host operations; the kernel cuts the rows into 1024 blocks of 2048, and at
  each block does the same arithmetic on the vector unit (products into a zero accumulator, the comparison's bit widened and
  converted signed), the weight matrices transposed by the program beforehand on both sides. Since the rows are independent, the
  block computed at a point is that block of the whole result, and the blocks tile the results: the two programs end with equal
  arrays. No algebraic law is needed beyond "a product accumulated into zero is the product" and "a bit is 0 or 1 read signed or
  unsigned", so the inputs' finiteness is not used.

  The frames of the two kernel programs are the generated ones; the reference's frame is its generated run with the results
  dropped; the idealization rewrote no operation, so `preserves` is trivial.
-/
import proofs.«128832_j17188459118719_1_alg».proof.Defs
import proofs.«128832_j17188459118719_1_alg».proof.Proof.Gen.Kernel
import proofs.«128832_j17188459118719_1_alg».proof.Proof.Gen.Kernel.Frame
import proofs.«128832_j17188459118719_1_alg».proof.Proof.Gen.KernelIdeal
import proofs.«128832_j17188459118719_1_alg».proof.Proof.Gen.KernelIdeal.Frame
import proofs.«128832_j17188459118719_1_alg».proof.Proof.Gen.ReferenceIdeal
import proofs.«128832_j17188459118719_1_alg».proof.Proof.Gen.ReferenceIdeal.Run
import proofs.«128832_j17188459118719_1_alg».proof.Proof.Gen.Pre_finite_inputs
import proofs.«128832_j17188459118719_1_alg».proof.Proof.KernelArrays
import proofs.«128832_j17188459118719_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- Both programs end with the network's four arrays of the (agreeing) arguments: the kernel's by blocks
    (Proof/KernelArrays.lean), the reference's whole (Proof/ReferenceRows.lean). -/
theorem algebraic : Cert.algebraic_KernelIdeal_ReferenceIdeal := by
  intro m ρ m' ρ' _ hagree
  refine ⟨_, _, _, _, Cert.KernelIdeal.Arrays.run m ρ, ?_⟩
  refine (θ_run Cert.ReferenceIdeal.defs _ _).mono (fun _ h c => ?_) (Cert.ReferenceIdeal.Value.run (F := Ideal) m' ρ')
  obtain ⟨h0, h1, h2, h3, hk⟩ := h c
  obtain ⟨a0, a1, a2, a3, a4, a5, a6⟩ := hagree c
  refine ⟨h0.trans ?_, h1.trans ?_, h2.trans ?_, h3.trans ?_, hk⟩
  · rw [a0, a1, a2, a3, a4, a5, a6]
    exact Cert.ReferenceIdeal.Rows.output_eq _ _ _ _ _ _ _
  · rw [a0, a1, a4]
    exact Cert.ReferenceIdeal.Rows.layer1_eq _ _ _
  · rw [a0, a1, a2, a4, a5]
    exact Cert.ReferenceIdeal.Rows.layer2_eq _ _ _ _ _
  · rw [a0, a1, a2, a3, a4, a5, a6]
    exact Cert.ReferenceIdeal.Rows.layer3_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
